-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096 .f32) (main_arg2 : IVec S4096 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg2 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v8 main_v11
  main_v12
-- ==== Kernel.lean ====
abbrev S16384x4096 : Shape := ⟨2, ![16384, 4096]⟩
abbrev S4096 : Shape := ⟨1, ![4096]⟩
abbrev S_ : Shape := ⟨0, ![]⟩
abbrev S4096x4096 : Shape := ⟨2, ![4096, 4096]⟩
abbrev S4096x1 : Shape := ⟨2, ![4096, 1]⟩
abbrev S4096x2 : Shape := ⟨2, ![4096, 2]⟩
abbrev S1x4096 : Shape := ⟨2, ![1, 4096]⟩
abbrev S16384x8192 : Shape := ⟨2, ![16384, 8192]⟩
abbrev S64x4096 : Shape := ⟨2, ![64, 4096]⟩
abbrev S64x8192 : Shape := ⟨2, ![64, 8192]⟩

abbrev nBuf : Space → Nat
  | .hbm => 36
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S_, .bf16⟩
  | .hbm, ⟨13, _⟩ => ⟨S4096x4096, .bf16⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096x1, .i32⟩
  | .hbm, ⟨30, _⟩ => ⟨S4096x2, .i32⟩
  | .hbm, ⟨31, _⟩ => ⟨S_, .bf16⟩
  | .hbm, ⟨32, _⟩ => ⟨S4096, .bf16⟩
  | .hbm, ⟨33, _⟩ => ⟨S4096x4096, .bf16⟩
  | .hbm, ⟨34, _⟩ => ⟨S1x4096, .f32⟩
  | .hbm, ⟨35, _⟩ => ⟨S16384x8192, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S1x4096, .f32⟩
  | .local _ .vmem, ⟨4, _⟩ => ⟨S64x8192, .f32⟩
  | .local _ .vmem, ⟨5, _⟩ => ⟨S64x8192, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_c_1 : Ref sig .tc := ⟨.hbm, 14, rfl⟩
abbrev main_v3 : Ref sig .tc := ⟨.hbm, 15, rfl⟩
abbrev main_v4 : Ref sig .tc := ⟨.hbm, 16, rfl⟩
abbrev main_c_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096 : S_.BroadcastsInDim S4096 (![] : Fin 0 → Fin S4096.rank)
  bcast_S_S4096x4096 : S_.BroadcastsInDim S4096x4096 (![] : Fin 0 → Fin S4096x4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  shapeCasts_S4096_S1x4096 : S4096.ShapeCasts S1x4096
  inb_S64x4096_S64x4096_0_0 : ∀ a, (![0, 0] : Fin 2 → Nat) a + S64x4096.size a ≤ S64x4096.size a
  h_S64x4096 : 0 < S64x4096.numel
  inb_S64x8192_S64x4096_0_0 : ∀ a, (![0, 0] : Fin 2 → Nat) a + S64x4096.size a ≤ S64x8192.size a
  bitsLt_bf16_f32 : FTy.bits .bf16 < FTy.bits .f32
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  inb_S64x8192_S64x4096_0_4096 : ∀ a, (![0, 4096] : Fin 2 → Nat) a + S64x4096.size a ≤ S64x8192.size a
  scatter_S4096x4096_S4096x2_S4096_n_01_01_1_wf : ScatterDims.WF S4096x4096 S4096x2 S4096 [] [0, 1] [0, 1] 1
  dot_S64x4096_S4096x4096_S64x4096_1_0_0_1_n_n_wf : DotDims.WF S64x4096 S4096x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S16384x4096.size a
  hwx0_0 : ∀ i : grid0.Coords, EltTy.bits .f32 = 32 ∨ (Rect.block (s := S16384x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x8192.size a ≤ S16384x8192.size a
  hwx0_3 : ∀ i : grid0.Coords, EltTy.bits .f32 = 32 ∨ (Rect.block (s := S16384x8192) S64x8192.size (cc0_transform_3 i) (hinb0_3 i)).WholeWords (EltTy.packing .f32)

variable [Facts₀]

def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf
def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

abbrev win0_0 : Pipeline.Window sig grid0 :=
  Pipeline.Window.ofSpec (Memref.whole main_arg0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S16384x8192 : Shape := ⟨2, ![16384, 8192]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x8192, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  concatenates_S16384x4096_S16384x4096_S16384x8192_d1 : Shape.Concatenates [S16384x4096, S16384x4096] S16384x8192 1
  gather_S16384x4096_S4096x1_S16384x4096_0_1_n_n_1_1_163841_wf : GatherDims.WF S16384x4096 S4096x1 S16384x4096 [0] [1] [] [1] [] 1 ![16384, 1]

variable [Facts₀]

def gather_S16384x4096_S4096x1_S16384x4096_0_1_n_n_1_1_163841 : GatherDims S16384x4096 S4096x1 S16384x4096 where
  offsetDims := [0]
  collapsedSliceDims := [1]
  operandBatchingDims := []
  startIndicesBatchingDims := []
  startIndexMap := [1]
  indexVectorDim := 1
  sliceSizes := ![16384, 1]
  wf := gather_S16384x4096_S4096x1_S16384x4096_0_1_n_n_1_1_163841_wf

class Facts : Prop extends Facts₀ where

variable [Facts]
-- ==== Proof.Payload.lean ====
/-
  The kernel body's arithmetic at one element of its second store.

  The body multiplies its 64 × 4096 block of the input by the 4096 × 4096 matrix held in its second window and scales
  column `k` of the product by entry `k` of the row vector in its third window. At the ideal values the change of
  format before the product is the identity and the product accumulates into zero, so element `(r, k)` of the payload
  is `(∑ f, x0 (r, f) * x1 (f, k)) * x2 (0, k)`.
-/
import proofs.«413260_j80968723464887_3_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.EmbedLinear.Payload

open Cert.KernelIdeal Cert.KernelIdeal.Gen Idealize.ShloMosaic Idealize.ShloMosaic.ValueIdx

/-! ## The product's operand indices, axis by axis -/

/-- The left operand is read at the output's row … -/
theorem lhs_dot_S64x4096_S4096x4096_S64x4096_1_0_0_1_n_n_0 (j : S64x4096.Idx) (q : dot_S64x4096_S4096x4096_S64x4096_1_0_0_1_n_n.contr.Idx) :
    (dot_S64x4096_S4096x4096_S64x4096_1_0_0_1_n_n.lhsIdx j q 0).val = (j 0).val := rfl
/-- … and at the contraction position; -/
theorem lhs_dot_S64x4096_S4096x4096_S64x4096_1_0_0_1_n_n_1 (j : S64x4096.Idx) (q : dot_S64x4096_S4096x4096_S64x4096_1_0_0_1_n_n.contr.Idx) :
    (dot_S64x4096_S4096x4096_S64x4096_1_0_0_1_n_n.lhsIdx j q 1).val = (q ⟨0, by decide⟩).val :=
  dot_S64x4096_S4096x4096_S64x4096_1_0_0_1_n_n.lhsIdx_val_of_single rfl j q
/-- the right operand at the contraction position … -/
theorem rhs_dot_S64x4096_S4096x4096_S64x4096_1_0_0_1_n_n_0 (j : S64x4096.Idx) (q : dot_S64x4096_S4096x4096_S64x4096_1_0_0_1_n_n.contr.Idx) :
    (dot_S64x4096_S4096x4096_S64x4096_1_0_0_1_n_n.rhsIdx j q 0).val = (q ⟨0, by decide⟩).val :=
  dot_S64x4096_S4096x4096_S64x4096_1_0_0_1_n_n.rhsIdx_val_of_single rfl j q
/-- … and at the output's column. -/
theorem rhs_dot_S64x4096_S4096x4096_S64x4096_1_0_0_1_n_n_1 (j : S64x4096.Idx) (q : dot_S64x4096_S4096x4096_S64x4096_1_0_0_1_n_n.contr.Idx) :
    (dot_S64x4096_S4096x4096_S64x4096_1_0_0_1_n_n.rhsIdx j q 1).val = (j 1).val := rfl

/-- The contraction's sum at output element `(r, k)`, over the one contracted coordinate `f`. -/
theorem contraction_sum (l : S64x4096.Idx → EReal) (w : S4096x4096.Idx → EReal) (r : Fin 64) (k : Fin 4096) :
    ∑ q : dot_S64x4096_S4096x4096_S64x4096_1_0_0_1_n_n.contr.Idx,
        l (dot_S64x4096_S4096x4096_S64x4096_1_0_0_1_n_n.lhsIdx (ix2 r k) q) * w (dot_S64x4096_S4096x4096_S64x4096_1_0_0_1_n_n.rhsIdx (ix2 r k) q)
      = ∑ f : Fin 4096, l (ix2 r f) * w (ix2 f k) := by
  rw [← Equiv.sum_comp (contrEquiv1 dot_S64x4096_S4096x4096_S64x4096_1_0_0_1_n_n 4096 rfl rfl).symm]
  refine Finset.sum_congr rfl fun f _ => ?_
  have hf := contrEquiv1_symm_val dot_S64x4096_S4096x4096_S64x4096_1_0_0_1_n_n 4096 rfl rfl f
  congr 2
  · funext a; apply Fin.ext
    match a with
    | ⟨0, _⟩ => exact lhs_dot_S64x4096_S4096x4096_S64x4096_1_0_0_1_n_n_0 _ _
    | ⟨1, _⟩ => exact (lhs_dot_S64x4096_S4096x4096_S64x4096_1_0_0_1_n_n_1 _ _).trans hf
  · funext a; apply Fin.ext
    match a with
    | ⟨0, _⟩ => exact (rhs_dot_S64x4096_S4096x4096_S64x4096_1_0_0_1_n_n_0 _ _).trans hf
    | ⟨1, _⟩ => exact rhs_dot_S64x4096_S4096x4096_S64x4096_1_0_0_1_n_n_1 _ _

/-- THE PAYLOAD AT `(r, k)`: row `r` of the input block against column `k` of the matrix, scaled by entry `k` of the row. -/
theorem pay_apply (x0 : FVec Ideal S64x4096 .f32) (x1 : FVec Ideal S4096x4096 .bf16) (x2 : FVec Ideal S1x4096 .f32)
    (r : Fin 64) (k : Fin 4096) :
    k0_pay1 (F := Ideal) x0 x1 x2 (ix2 r k) = (∑ f : Fin 4096, x0 (ix2 r f) * x1 (ix2 f k)) * x2 (ix2 (0 : Fin 1) k) := by
  unfold k0_pay1
  rw [mulf_apply, shapeCast_self, shapeCast_self]
  rw [broadcastTo_apply x2 broadcasts_S1x4096_S64x4096 (ix2 r k) (ix2 (0 : Fin 1) k) (fun a => by
    match a with
    | ⟨0, _⟩ => rfl
    | ⟨1, _⟩ => rfl)]
  simp only [matmul]
  rw [Ideal.matmul_constant_zero_apply]
  exact congrArg (· * x2 (ix2 (0 : Fin 1) k)) (contraction_sum (truncf .bf16 x0 bitsLt_bf16_f32) x1 r k)

end Cert.EmbedLinear.Payload

end
-- ==== Proof.Spec.lean ====
/-
  What both programs compute, as one function of the three argument arrays.

  The layer concatenates the input with a gathered-and-scaled copy of it: for a batch row `b`,
  `out[b, k] = input[b, k]` on the first 4096 columns, and on the last 4096 columns
  `out[b, 4096 + c] = input[b, col c] * values[c]`, where `col c` is child `c`'s parent word read as a
  signed integer and clamped into the column range `[0, 4095]`.
-/
import Idealize.ShloMosaic.PureOps.Ideal
import Idealize.ShloMosaic.Lib.ValueIdx

noncomputable section

namespace Cert.EmbedLinear

open Idealize.ShloMosaic Idealize.ShloMosaic.ValueIdx

/-- The column a parent word names: the word as a signed integer, clamped into `[0, 4095]`. -/
def col (w : BitVec 32) : Fin 4096 := ⟨min w.toInt.toNat 4095, by omega⟩

theorem col_val (w : BitVec 32) : (col w).val = min w.toInt.toNat 4095 := rfl

/-- Child `c` of an output column `k ≥ 4096`. -/
def child (k : Fin 8192) (h : ¬ k.val < 4096) : Fin 4096 := ⟨k.val - 4096, by have := k.isLt; omega⟩

/-- The result array: the input on the first 4096 columns; on column `4096 + c` the input's column `col (parents c)`
    scaled by `values c`. -/
def embed (x : (⟨2, ![16384, 4096]⟩ : Shape).Idx → EReal) (v : (⟨1, ![4096]⟩ : Shape).Idx → EReal)
    (p : (⟨1, ![4096]⟩ : Shape).Idx → BitVec 32) : (⟨2, ![16384, 8192]⟩ : Shape).Idx → EReal :=
  fun j =>
    if h : (j 1).val < 4096 then x (ix2 (⟨(j 0).val, idx2_lt0 j⟩ : Fin 16384) (⟨(j 1).val, h⟩ : Fin 4096))
    else x (ix2 (⟨(j 0).val, idx2_lt0 j⟩ : Fin 16384) (col (p (ix1 (child ⟨(j 1).val, idx2_lt1 j⟩ h)))))
      * v (ix1 (child ⟨(j 1).val, idx2_lt1 j⟩ h))

/-- On a column of the first half the result is the input there. -/
theorem embed_left (x : (⟨2, ![16384, 4096]⟩ : Shape).Idx → EReal) (v : (⟨1, ![4096]⟩ : Shape).Idx → EReal)
    (p : (⟨1, ![4096]⟩ : Shape).Idx → BitVec 32) (b : Fin 16384) (k : Fin 8192) (h : k.val < 4096) :
    embed x v p (ix2 b k) = x (ix2 b (⟨k.val, h⟩ : Fin 4096)) := by
  unfold embed
  rw [dif_pos (show ((ix2 b k : (⟨2, ![16384, 8192]⟩ : Shape).Idx) 1).val < 4096 from h)]

/-- On column `4096 + c` the result is the input's column `col (parents c)` times `values c`. -/
theorem embed_right (x : (⟨2, ![16384, 4096]⟩ : Shape).Idx → EReal) (v : (⟨1, ![4096]⟩ : Shape).Idx → EReal)
    (p : (⟨1, ![4096]⟩ : Shape).Idx → BitVec 32) (b : Fin 16384) (k : Fin 8192) (h : ¬ k.val < 4096) :
    embed x v p (ix2 b k) = x (ix2 b (col (p (ix1 (child k h))))) * v (ix1 (child k h)) := by
  unfold embed
  rw [dif_neg (show ¬ ((ix2 b k : (⟨2, ![16384, 8192]⟩ : Shape).Idx) 1).val < 4096 from h)]

end Cert.EmbedLinear

end
-- ==== Proof.Block.lean ====
/-
  One 64 × 8192 block of the result, from the three blocks a grid point stages.

  The body stores its 64 × 4096 input block on the first 4096 columns, and on column `4096 + k` the product of the input
  block with column `k` of the staged matrix, scaled by scale `k`. When column `k` of the matrix is one-hot — a single one,
  at row `P k` — the product picks the input block's entry in column `P k`.
-/
import proofs.«413260_j80968723464887_3_alg».proof.Proof.Gen.KernelIdeal.Frame
import proofs.«413260_j80968723464887_3_alg».proof.Proof.Payload
import proofs.«413260_j80968723464887_3_alg».proof.Proof.Spec

noncomputable section

open scoped BigOperators

namespace Cert.EmbedLinear.Block

open Cert.KernelIdeal Cert.KernelIdeal.Gen Idealize.ShloMosaic Idealize.ShloMosaic.TcCoe Idealize.SL.Sem
open Idealize.ShloMosaic.Pipeline (Dat)
open Idealize.ShloMosaic.ValueIdx Cert.EmbedLinear

theorem hz : (![0, 0] : Fin 2 → Nat) = fun _ => 0 := funext fun a => by fin_cases a <;> rfl

/-! ## One block of the result, from the blocks the point stages -/

/-- A sum of products against a one-hot column picks one entry. -/
theorem sum_mul_onehot (g : Fin 4096 → EReal) (q : Fin 4096) :
    ∑ f : Fin 4096, g f * (if f = q then (1 : EReal) else 0) = g q := by
  rw [Finset.sum_eq_single q (fun f _ hf => by rw [if_neg hf, mul_zero]) (fun h => absurd (Finset.mem_univ q) h),
    if_pos rfl, mul_one]

/-- What the body leaves in the output block, element by element, when the staged matrix has one-hot columns (the one
    of column `k` at row `P k`): the input block on the first 4096 columns, and at column `4096 + k` the input block's
    entry in column `P k` times scale `k`. -/
theorem out_apply (x0 : FVec Ideal S64x4096 .f32) (x1 : FVec Ideal S4096x4096 .bf16) (x2 : FVec Ideal S1x4096 .f32)
    (P : Fin 4096 → Fin 4096) (h1 : ∀ f k : Fin 4096, x1 (ix2 f k) = if f = P k then 1 else 0) (r : Fin 64) (k : Fin 8192) :
    out0_3 (F := Ideal) x0 x1 x2 (ix2 r k)
      = if h : k.val < 4096 then x0 (ix2 r (⟨k.val, h⟩ : Fin 4096))
        else x0 (ix2 r (P (child k h))) * x2 (ix2 (0 : Fin 1) (child k h)) := by
  unfold out0_3
  simp only [View.ld_unit_zero (S := S64x4096) hz, View.ld_unit_zero (S := S4096x4096) hz, View.ld_unit_zero (S := S1x4096) hz]
  refine View.canon_apply_of_pieces (Val := Elt Ideal)
    (fun y : S64x8192.Idx => if h : (y 1).val < 4096 then x0 (ix2 (⟨(y 0).val, idx2_lt0 y⟩ : Fin 64) (⟨(y 1).val, h⟩ : Fin 4096))
      else x0 (ix2 (⟨(y 0).val, idx2_lt0 y⟩ : Fin 64) (P (child ⟨(y 1).val, idx2_lt1 y⟩ h))) * x2 (ix2 (0 : Fin 1) (child ⟨(y 1).val, idx2_lt1 y⟩ h)))
    _ ?_ (ix2 r k) (cover0_3 _ _ (ix2 r k))
  intro p hp x
  rcases List.mem_cons.mp hp with rfl | hp
  · -- the second store: columns 4096 … 8191
    obtain ⟨a, b, rfl⟩ : ∃ (a : Fin 64) (b : Fin 4096), x = ix2 a b := ⟨x 0, x 1, eq_ix2 x⟩
    have hb := b.isLt
    have hcol : ¬ ((r0_4.emb (ix2 a b) (1 : Fin 2)).val < 4096) := by
      show ¬ (4096 + 1 * b.val < 4096); omega
    rw [dif_neg hcol]
    show k0_pay1 (F := Ideal) x0 x1 x2 (ix2 a b) = _
    rw [Payload.pay_apply]
    have hch : child ⟨(r0_4.emb (ix2 a b) (1 : Fin 2)).val, idx2_lt1 _⟩ hcol = b := Fin.ext (by
      show 4096 + 1 * b.val - 4096 = b.val; omega)
    have hrow : (⟨(r0_4.emb (ix2 a b) (0 : Fin 2)).val, idx2_lt0 _⟩ : Fin 64) = a := Fin.ext (by
      show 0 + 1 * a.val = a.val; omega)
    rw [hch, hrow]
    congr 1
    simp only [h1]
    exact sum_mul_onehot (fun f => x0 (ix2 a f)) (P b)
  · -- the first store: columns 0 … 4095
    obtain rfl : p = ⟨r0_1, x0⟩ := List.mem_singleton.mp hp
    obtain ⟨a, b, rfl⟩ : ∃ (a : Fin 64) (b : Fin 4096), x = ix2 a b := ⟨x 0, x 1, eq_ix2 x⟩
    have hb := b.isLt
    have hcol : (r0_1.emb (ix2 a b) (1 : Fin 2)).val < 4096 := by
      show 0 + 1 * b.val < 4096; omega
    rw [dif_pos hcol]
    show x0 (ix2 a b) = x0 (ix2 _ _)
    congr 2
    · exact Fin.ext (by show a.val = 0 + 1 * a.val; omega)
    · exact Fin.ext (by show b.val = 0 + 1 * b.val; omega)

end Cert.EmbedLinear.Block

end
-- ==== Proof.LibScatterSet.lean ====
/-
  A "set" scatter read at one element.

  `Host.scatter d (fun _ b => b) x idx upd` is a left fold over the update positions in row-major order; each update
  replaces the element at its result index (`ScatterDims.resultIdx?`; `none`: the update is dropped). Where at most one
  update position lands on a given element, the order of the fold does not matter for that element: it holds that
  update's value if the update lands there and the operand's element otherwise (`scatter_set_apply`). The second
  theorem says where an update of a point scatter into a rank-2 operand lands (`point2_resultIdx?_eq_some_iff`).
-/
import Idealize.ShloMosaic.PureOps.Ideal
import Idealize.ShloMosaic.Lib.ValueIdx

noncomputable section

namespace Cert.LibScatterSet

open Idealize.ShloMosaic Idealize.ShloMosaic.ValueIdx

/-! ## A fold of point replacements, read at one position -/

section Fold
variable {ι κ α : Type}

/-- A left fold of point replacements read at a position `i` that no listed key lands on: the start value. The step
    `step r n` replaces `r` at position `g n` (when that is `some j`) and leaves every other position alone; it is given
    by its two properties rather than by a formula, so that any way of writing it fits. -/
private theorem foldl_set_miss (g : κ → Option ι) (step : (ι → α) → κ → ι → α)
    (hne : ∀ r n j i', g n = some j → i' ≠ j → step r n i' = r i') (hnone : ∀ r n, g n = none → step r n = r)
    (i : ι) (l : List κ) (hl : ∀ n ∈ l, g n ≠ some i) (x : ι → α) : l.foldl step x i = x i := by
  induction l generalizing x with
  | nil => rfl
  | cons n l ih =>
    rw [List.foldl_cons, ih (fun m hm => hl m (List.mem_cons_of_mem _ hm))]
    cases hg : g n with
    | none => rw [hnone x n hg]
    | some j =>
      refine hne x n j i hg ?_
      rintro rfl
      exact hl n List.mem_cons_self hg

/-- A left fold of point replacements read at a position `i` that exactly the key `c` of the list lands on (a key
    that lands on `i` is `c`): the value `v c` that key writes. The list may name `c` more than once: every time it
    writes the same value. -/
private theorem foldl_set_hit (g : κ → Option ι) (v : κ → α) (step : (ι → α) → κ → ι → α)
    (heq : ∀ r n j, g n = some j → step r n j = v n)
    (hne : ∀ r n j i', g n = some j → i' ≠ j → step r n i' = r i') (hnone : ∀ r n, g n = none → step r n = r)
    (i : ι) (c : κ) (huniq : ∀ n, g n = some i → n = c) (hc : g c = some i)
    (l : List κ) (hl : c ∈ l) (x : ι → α) : l.foldl step x i = v c := by
  induction l generalizing x with
  | nil => exact absurd hl List.not_mem_nil
  | cons n l ih =>
    rw [List.foldl_cons]
    by_cases hcl : c ∈ l
    · exact ih hcl _
    · have hnc : n = c := by
        rcases List.mem_cons.1 hl with h | h
        · exact h.symm
        · exact absurd h hcl
      subst hnc
      rw [foldl_set_miss g step hne hnone i l (fun m hm hgm => hcl (huniq m hgm ▸ hm))]
      exact heq x n i hc

end Fold

/-! ## The scatter -/

/-- A 'set' scatter read at an element that at most one update position `c` lands on: that update's value if it does
    land there, the operand's element otherwise. -/
theorem scatter_set_apply {s si u : Shape} {w : Nat} {α : Type} (d : ScatterDims s si u) (x : s.Idx → α) (idx : IVec si w) (upd : u.Idx → α)
    (i : s.Idx) (c : u.Idx) (huniq : ∀ n : u.Idx, d.resultIdx? n idx = some i → n = c) :
    Host.scatter d (fun _ b => b) x idx upd i = if d.resultIdx? c idx = some i then upd c else x i := by
  unfold Host.scatter
  -- the step of the fold, by its properties: it writes the update at the result index and nothing else
  have heq : ∀ (r : s.Idx → α) (n : Fin u.numel) (j : s.Idx), d.resultIdx? (u.rowMajor.symm n) idx = some j →
      (match d.resultIdx? (u.rowMajor.symm n) idx with
        | some i => fun i' => if i' = i then (fun _ b => b) (r i) (upd (u.rowMajor.symm n)) else r i'
        | none => r) j = upd (u.rowMajor.symm n) := by
    intro r n j h
    rw [h]
    exact if_pos rfl
  have hne : ∀ (r : s.Idx → α) (n : Fin u.numel) (j i' : s.Idx), d.resultIdx? (u.rowMajor.symm n) idx = some j → i' ≠ j →
      (match d.resultIdx? (u.rowMajor.symm n) idx with
        | some i => fun i' => if i' = i then (fun _ b => b) (r i) (upd (u.rowMajor.symm n)) else r i'
        | none => r) i' = r i' := by
    intro r n j i' h hi
    rw [h]
    exact if_neg hi
  have hnone : ∀ (r : s.Idx → α) (n : Fin u.numel), d.resultIdx? (u.rowMajor.symm n) idx = none →
      (match d.resultIdx? (u.rowMajor.symm n) idx with
        | some i => fun i' => if i' = i then (fun _ b => b) (r i) (upd (u.rowMajor.symm n)) else r i'
        | none => r) = r := by
    intro r n h
    rw [h]
  by_cases h : d.resultIdx? c idx = some i
  · rw [if_pos h]
    have hcc : u.rowMajor.symm (u.rowMajor c) = c := u.rowMajor.symm_apply_apply c
    have := foldl_set_hit (fun n : Fin u.numel => d.resultIdx? (u.rowMajor.symm n) idx) (fun n => upd (u.rowMajor.symm n)) _
      heq hne hnone i (u.rowMajor c)
      (fun n hn => (Equiv.symm_apply_eq _).1 (huniq _ hn))
      (by show d.resultIdx? (u.rowMajor.symm (u.rowMajor c)) idx = some i; rw [hcc]; exact h)
      (List.finRange u.numel) (List.mem_finRange _) x
    exact this.trans (congrArg upd hcc)
  · rw [if_neg h]
    refine foldl_set_miss (fun n : Fin u.numel => d.resultIdx? (u.rowMajor.symm n) idx) _ hne hnone i _ ?_ x
    intro n _ hn
    exact h (huniq _ hn ▸ hn)

/-! ## Where a point update lands -/

/-- Where update `k` of a point scatter into a rank-2 operand lands: at the element whose two coordinates are the two
    signed words of row `k` of the index table (no clamping: an out-of-range pair lands nowhere). The dimension numbers
    are those of `z.at[rows, cols].set(u)`: no window axes, both operand axes inserted, index vector on axis 1. -/
theorem point2_resultIdx?_eq_some_iff {R C n w : Nat} (d : ScatterDims ⟨2, ![R, C]⟩ ⟨2, ![n, 2]⟩ ⟨1, ![n]⟩)
    (huw : d.updateWindowDims = []) (hiw : d.insertedWindowDims = [0, 1]) (hsd : d.scatterDimsToOperandDims = [0, 1]) (hivd : d.indexVectorDim = 1)
    (idx : IVec ⟨2, ![n, 2]⟩ w) (k : Fin n) (i : (⟨2, ![R, C]⟩ : Shape).Idx) :
    d.resultIdx? (ix1 k) idx = some i ↔ (idx (ix2 k (0 : Fin 2))).toInt = ((i 0).val : Int) ∧ (idx (ix2 k (1 : Fin 2))).toInt = ((i 1).val : Int) := by
  -- both operand axes are inserted: no window coordinate on either
  have hw : ∀ a : Fin 2, d.window (ix1 k) a = 0 := by
    intro a
    unfold ScatterDims.window
    rw [dif_neg]
    simp only [ScatterDims.sKept, Shape.kept, hiw, List.mem_filter, List.mem_finRange, true_and]
    fin_cases a <;> simp
  -- the index table's entry an update reads for a component: row `k`, column the component
  have hsi : ∀ (c : Fin d.scatterDimsToOperandDims.length) (c' : Fin 2), c.val = c'.val → d.siIdx (ix1 k) c = ix2 k c' := by
    intro c c' hcc
    funext b
    match b with
    | ⟨0, _⟩ =>
      unfold ScatterDims.siIdx
      rw [dif_neg (by rw [hivd]; simp)]
      unfold ScatterDims.siCoord
      apply Fin.ext
      simp only [Fin.val_cast]
      have e : ∀ X : Fin 1, ((ix1 k : (⟨1, ![n]⟩ : Shape).Idx) X).val = k.val := fun X => by
        have hX : X = 0 := Subsingleton.elim _ _
        subst hX; rfl
      exact e _
    | ⟨1, _⟩ =>
      unfold ScatterDims.siIdx
      rw [dif_pos (by rw [hivd])]
      apply Fin.ext
      exact hcc
  have hm0 : (0 : Fin 2) ∈ d.scatterDimsToOperandDims := by rw [hsd]; simp
  have hm1 : (1 : Fin 2) ∈ d.scatterDimsToOperandDims := by rw [hsd]; simp
  have hs0 : d.start (ix1 k) idx (0 : Fin 2) = (idx (ix2 k (0 : Fin 2))).toInt := by
    unfold ScatterDims.start
    rw [dif_pos hm0, hsi _ (0 : Fin 2) (by show List.idxOf (0 : Fin 2) d.scatterDimsToOperandDims = 0; rw [hsd]; simp)]
  have hs1 : d.start (ix1 k) idx (1 : Fin 2) = (idx (ix2 k (1 : Fin 2))).toInt := by
    unfold ScatterDims.start
    rw [dif_pos hm1, hsi _ (1 : Fin 2) (by show List.idxOf (1 : Fin 2) d.scatterDimsToOperandDims = 1; rw [hsd]; simp)]
  have hlt0 : (i 0).val < R := idx2_lt0 i
  have hlt1 : (i 1).val < C := idx2_lt1 i
  have hsz0 : (⟨2, ![R, C]⟩ : Shape).size (0 : Fin 2) = R := rfl
  have hsz1 : (⟨2, ![R, C]⟩ : Shape).size (1 : Fin 2) = C := rfl
  unfold ScatterDims.resultIdx?
  split
  · -- the update lands inside the operand: at the element with those two coordinates
    rename_i h
    have h0 := h (0 : Fin 2)
    have h1 := h (1 : Fin 2)
    rw [hs0, hw, hsz0] at h0
    rw [hs1, hw, hsz1] at h1
    constructor
    · intro hf
      have hf' := Option.some.inj hf
      have e0 : (d.start (ix1 k) idx (0 : Fin 2) + ((d.window (ix1 k) (0 : Fin 2) : Nat) : Int)).toNat = (i 0).val :=
        congrArg (fun f : (⟨2, ![R, C]⟩ : Shape).Idx => (f 0).val) hf'
      have e1 : (d.start (ix1 k) idx (1 : Fin 2) + ((d.window (ix1 k) (1 : Fin 2) : Nat) : Int)).toNat = (i 1).val :=
        congrArg (fun f : (⟨2, ![R, C]⟩ : Shape).Idx => (f 1).val) hf'
      rw [hs0, hw] at e0
      rw [hs1, hw] at e1
      constructor <;> omega
    · rintro ⟨e0, e1⟩
      refine congrArg some ?_
      funext a
      apply Fin.ext
      match a with
      | ⟨0, _⟩ =>
        show (d.start (ix1 k) idx (0 : Fin 2) + ((d.window (ix1 k) (0 : Fin 2) : Nat) : Int)).toNat = (i 0).val
        rw [hs0, hw, e0]; simp
      | ⟨1, _⟩ =>
        show (d.start (ix1 k) idx (1 : Fin 2) + ((d.window (ix1 k) (1 : Fin 2) : Nat) : Int)).toNat = (i 1).val
        rw [hs1, hw, e1]; simp
  · -- the update is dropped: one of the two words is not a coordinate of the operand
    rename_i h
    constructor
    · intro hf
      exact absurd hf (by simp)
    · rintro ⟨e0, e1⟩
      exfalso
      apply h
      intro a
      match a with
      | ⟨0, _⟩ =>
        show 0 ≤ d.start (ix1 k) idx (0 : Fin 2) + ((d.window (ix1 k) (0 : Fin 2) : Nat) : Int) ∧
          d.start (ix1 k) idx (0 : Fin 2) + ((d.window (ix1 k) (0 : Fin 2) : Nat) : Int) < ((R : Nat) : Int)
        rw [hs0, hw, e0]
        constructor <;> omega
      | ⟨1, _⟩ =>
        show 0 ≤ d.start (ix1 k) idx (1 : Fin 2) + ((d.window (ix1 k) (1 : Fin 2) : Nat) : Int) ∧
          d.start (ix1 k) idx (1 : Fin 2) + ((d.window (ix1 k) (1 : Fin 2) : Nat) : Int) < ((C : Nat) : Int)
        rw [hs1, hw, e1]
        constructor <;> omega

end Cert.LibScatterSet

end
-- ==== Proof.Words.lean ====
/-
  Signed 32-bit words as integers: the clamp `min 4095 (max 0 w)`, and the index normalisation
  `if w < 0 then w + 4096 else w` that an indexing operation applies before it reads.
-/
import Idealize.ShloMosaic.PureOps.Ideal
import Idealize.ShloMosaic.Lib.ValueIdx
import Idealize.ShloMosaic.Lib.StableHlo.Predicate
import proofs.«413260_j80968723464887_3_alg».proof.Proof.Spec

noncomputable section

namespace Cert.EmbedLinear

open Idealize.ShloMosaic Idealize.ShloMosaic.ValueIdx

/-- The signed minimum of two words is the minimum of their values. -/
theorem toInt_minsi (a b : BitVec 32) : (IntOp.minsi a b).toInt = min a.toInt b.toInt := by
  unfold IntOp.minsi
  by_cases h : a.slt b = true
  · rw [if_pos h]
    have : a.toInt < b.toInt := by simpa [BitVec.slt] using h
    omega
  · rw [if_neg h]
    have : ¬ a.toInt < b.toInt := by simpa [BitVec.slt] using h
    omega

/-- The signed maximum of two words is the maximum of their values. -/
theorem toInt_maxsi (a b : BitVec 32) : (IntOp.maxsi a b).toInt = max a.toInt b.toInt := by
  unfold IntOp.maxsi
  by_cases h : b.slt a = true
  · rw [if_pos h]
    have : b.toInt < a.toInt := by simpa [BitVec.slt] using h
    omega
  · rw [if_neg h]
    have : ¬ b.toInt < a.toInt := by simpa [BitVec.slt] using h
    omega

/-- A word that is not negative does not compare below zero. -/
theorem cmpi_slt_zero_of_nonneg {w : BitVec 32} (h : 0 ≤ w.toInt) : IntOp.cmpi .slt w 0#32 = 0#1 := by
  unfold IntOp.cmpi
  have : w.slt 0#32 = false := by
    simp only [BitVec.slt, decide_eq_false_iff_not, not_lt]
    simpa using h
  rw [this]; rfl

/-- The index normalisation leaves a word that is not negative alone. -/
theorem normalize_of_nonneg {w : BitVec 32} (h : 0 ≤ w.toInt) :
    Scalar.select (IntOp.cmpi .slt w 0#32) (IntOp.addi w 4096#32) w = w := by
  rw [cmpi_slt_zero_of_nonneg h]; exact select_zero _ _

/-- The clamped word `min 4095 (max 0 w)`. -/
def clampWord (w : BitVec 32) : BitVec 32 := IntOp.minsi 4095#32 (IntOp.maxsi 0#32 w)

theorem toInt_clampWord (w : BitVec 32) : (clampWord w).toInt = min 4095 (max 0 w.toInt) := by
  unfold clampWord
  rw [toInt_minsi, toInt_maxsi]
  rfl

/-- The clamped word, read as a natural number, is the column `col w` of the specification. -/
theorem toInt_clampWord_eq_col (w : BitVec 32) : (clampWord w).toInt = ((col w).val : Int) := by
  rw [toInt_clampWord, col_val]
  omega

/-- The position word `n` of an `iota` over 4096 positions has value `n`. -/
theorem toInt_ofNat_pos (n : Fin 4096) : (BitVec.ofNat 32 n.val).toInt = (n.val : Int) := by
  exact StableHlo.Predicate.toInt_ofNat_small n.val (Nat.lt_of_lt_of_le n.isLt (by decide))

end Cert.EmbedLinear

end
-- ==== Proof.OneHot.lean ====
/-
  The matrix the kernel multiplies by, as the region finds it, and the row of scales.

  Before the region the program clamps every parent word into `[0, 4095]`, and writes a one into a 4096 × 4096 matrix of
  zeros at row `clamp (parents c)`, column `c`, for every child `c`. Column `c` is named by exactly one update (its own),
  so the matrix read at `(f, c)` is one when `f` is child `c`'s clamped parent and zero otherwise: a one-hot column
  per child. The scales are the `values` vector laid out as one row.
-/
import proofs.«413260_j80968723464887_3_alg».proof.Proof.Gen.KernelIdeal.Frame
import proofs.«413260_j80968723464887_3_alg».proof.Proof.LibScatterSet
import proofs.«413260_j80968723464887_3_alg».proof.Proof.Words
import Idealize.ShloMosaic.Lib.StableHlo.Run
import Idealize.ShloMosaic.Lib.Pipeline.Value
import Idealize.ShloMosaic.PureOps.IdealRules

noncomputable section

namespace Cert.EmbedLinear.OneHot

open Cert.KernelIdeal Cert.KernelIdeal.Gen Idealize.ShloMosaic Idealize.ShloMosaic.TcCoe Idealize.SL.Sem
open Idealize.ShloMosaic.StableHlo Idealize.ShloMosaic.ValueIdx Cert.EmbedLinear

variable {F : FTy → Type} [FloatOps F]

/-! ## The index table of the scatter: row `n` holds (clamped parent of child `n`, `n`) -/

/-- The parent words clamped into `[0, 4095]`. -/
def clamped (p : IVec S4096 32) : IVec S4096 32 :=
  minsi (broadcastInDim S4096 ![] bcast_S_S4096 (id (constantI S_ 32 4095#32)))
    (maxsi (broadcastInDim S4096 ![] bcast_S_S4096 (id (constantI S_ 32 0#32))) p)

/-- The 4096 × 2 table of scatter positions: in column 0 the clamped parents, in column 1 the child's own position,
    each after the indexing operation's normalisation of a negative index. -/
def table (p : IVec S4096 32) : IVec S4096x2 32 :=
  concatenate S4096x2 1
    [⟨S4096x1, broadcastInDim S4096x1 ![0] bcast_S4096_S4096x1_0
        (select (cmpi .slt (clamped p) (broadcastInDim S4096 ![] bcast_S_S4096 (constantI S_ 32 0#32)))
          (addi (clamped p) (broadcastInDim S4096 ![] bcast_S_S4096 (constantI S_ 32 4096#32))) (clamped p))⟩,
     ⟨S4096x1, broadcastInDim S4096x1 ![0] bcast_S4096_S4096x1_0
        (select (cmpi .slt (iotaInDim S4096 32 0) (broadcastInDim S4096 ![] bcast_S_S4096 (constantI S_ 32 0#32)))
          (addi (iotaInDim S4096 32 0) (broadcastInDim S4096 ![] bcast_S_S4096 (constantI S_ 32 4096#32))) (iotaInDim S4096 32 0))⟩]
    concatenates_S4096x1_S4096x1_S4096x2_d1

/-- The clamped parent of child `n` is the clamp of its word. -/
theorem clamped_apply (p : IVec S4096 32) (n : Fin 4096) : clamped p (ix1 n) = clampWord (p (ix1 n)) := rfl

/-- Column 0 of the table at row `n`: child `n`'s clamped parent (never negative, so the normalisation leaves it). -/
theorem table_row (p : IVec S4096 32) (n : Fin 4096) : table p (ix2 n (0 : Fin 2)) = clampWord (p (ix1 n)) := by
  unfold table
  rw [concatenate_pair_apply_left (t := S4096x2) (s₁ := S4096x1) (s₂ := S4096x1) (1 : Fin 2) _ _ concatenates_S4096x1_S4096x1_S4096x2_d1
    (ix2 n (0 : Fin 2) : S4096x2.Idx) rfl (ix2 n (0 : Fin 1) : S4096x1.Idx)
    (fun b => by match b with | ⟨0, _⟩ => rfl | ⟨1, _⟩ => rfl)]
  rw [broadcastInDim_apply _ bcast_S4096_S4096x1_0 _ (ix2 n (0 : Fin 1)) (ix1 n) (fun a => by
    match a with
    | ⟨0, _⟩ => show n.val = if (4096 : Nat) = 1 then 0 else n.val; rw [if_neg (by decide)])]
  show Scalar.select (IntOp.cmpi .slt (clampWord (p (ix1 n))) 0#32) (IntOp.addi (clampWord (p (ix1 n))) 4096#32) (clampWord (p (ix1 n))) = _
  exact normalize_of_nonneg (by rw [toInt_clampWord_eq_col]; exact Int.natCast_nonneg _)

/-- Column 1 of the table at row `n`: the position `n` itself. -/
theorem table_col (p : IVec S4096 32) (n : Fin 4096) : table p (ix2 n (1 : Fin 2)) = BitVec.ofNat 32 n.val := by
  unfold table
  rw [concatenate_pair_apply_right (t := S4096x2) (s₁ := S4096x1) (s₂ := S4096x1) (1 : Fin 2) _ _ concatenates_S4096x1_S4096x1_S4096x2_d1
    (ix2 n (1 : Fin 2) : S4096x2.Idx) rfl rfl (ix2 n (0 : Fin 1) : S4096x1.Idx)
    (fun b hb => by
      match b with
      | ⟨0, _⟩ => rfl
      | ⟨1, _⟩ => exact absurd rfl hb)
    rfl]
  rw [broadcastInDim_apply _ bcast_S4096_S4096x1_0 _ (ix2 n (0 : Fin 1)) (ix1 n) (fun a => by
    match a with
    | ⟨0, _⟩ => show n.val = if (4096 : Nat) = 1 then 0 else n.val; rw [if_neg (by decide)])]
  show Scalar.select (IntOp.cmpi .slt (BitVec.ofNat 32 n.val) 0#32) (IntOp.addi (BitVec.ofNat 32 n.val) 4096#32) (BitVec.ofNat 32 n.val) = _
  exact normalize_of_nonneg (by rw [toInt_ofNat_pos]; exact Int.natCast_nonneg _)

/-! ## The scattered matrix at an element -/

/-- A matrix of `z`s with `o` written at (clamped parent of `c`, `c`) for every child `c`, read at `(f, k)`: `o` when `f` is
    the column `col (parents k)` of the specification, `z` otherwise. -/
theorem scattered_apply {α : Type} (z : S4096x4096.Idx → α) (o : S4096.Idx → α) (p : IVec S4096 32) (f k : Fin 4096) :
    Host.scatter scatter_S4096x4096_S4096x2_S4096_n_01_01_1 (fun _ b => b) z (table p) o (ix2 f k)
      = if f = col (p (ix1 k)) then o (ix1 k) else z (ix2 f k) := by
  have hland : ∀ (n : Fin 4096) (i : S4096x4096.Idx),
      scatter_S4096x4096_S4096x2_S4096_n_01_01_1.resultIdx? (ix1 n) (table p) = some i
        ↔ ((col (p (ix1 n))).val : Int) = ((i 0).val : Int) ∧ (n.val : Int) = ((i 1).val : Int) := fun n i => by
    rw [Cert.LibScatterSet.point2_resultIdx?_eq_some_iff scatter_S4096x4096_S4096x2_S4096_n_01_01_1 rfl rfl rfl rfl,
      table_row, table_col, toInt_clampWord_eq_col, toInt_ofNat_pos]
  rw [Cert.LibScatterSet.scatter_set_apply scatter_S4096x4096_S4096x2_S4096_n_01_01_1 z (table p) o (ix2 f k) (ix1 k)
    (fun n hn => by
      rw [eq_ix1 n] at hn ⊢
      have h2 := ((hland (n 0) (ix2 f k)).1 hn).2
      have h3 : ((n 0 : Fin 4096).val : Int) = (k.val : Int) := h2
      exact congrArg ix1 (Fin.ext (by exact_mod_cast h3)))]
  by_cases hf : f = col (p (ix1 k))
  · rw [if_pos hf, if_pos ((hland k (ix2 f k)).2 ⟨by rw [hf], rfl⟩)]
  · rw [if_neg hf, if_neg (fun h => hf (Fin.ext (by
      have h1 := ((hland k (ix2 f k)).1 h).1
      have h4 : ((col (p (ix1 k))).val : Int) = (f.val : Int) := h1
      exact_mod_cast h4.symm)))]

/-! ## The region's second and third arrays -/

variable (m : (ℓ : Loc nD τ sig) → Buf (Elt F) ℓ)

set_option maxHeartbeats 4000000 in
/-- The matrix the region's second window stages: zeros, with a one scattered in for every child. -/
theorem V_matrix (c : Dev nD) :
    (V m c main_v17 : S4096x4096.Idx → F .bf16)
      = Host.scatter scatter_S4096x4096_S4096x2_S4096_n_01_01_1 (fun _ b => b)
          (broadcastInDim S4096x4096 ![] bcast_S_S4096x4096 (constant S_ .bf16 0x0000#16))
          (table (m (c, Proc.tc.devRef main_arg2)))
          (broadcastInDim S4096 ![] bcast_S_S4096 (constant S_ .bf16 0x3F80#16)) := by
  dsimp only [Gen.V]
  simp only [hostOps0, hostOps0_1, hostOps0_2, List.flatten_cons, List.flatten_nil, List.append_nil, List.cons_append, List.nil_append]
  after_results
  rfl

/-- The row of scales the region's third window stages: the `values` vector as a 1 × 4096 array. -/
theorem V_scales (c : Dev nD) :
    (V m c main_v18 : S1x4096.Idx → F .f32) = shapeCast S1x4096 (m (c, Proc.tc.devRef main_arg1)) shapeCasts_S4096_S1x4096 := by
  dsimp only [Gen.V]
  simp only [hostOps0, hostOps0_1, hostOps0_2, List.flatten_cons, List.flatten_nil, List.append_nil, List.cons_append, List.nil_append]
  after_results
  rfl

end Cert.EmbedLinear.OneHot

/-! ## At the ideal values: one-hot columns, and the scales by position -/

namespace Cert.EmbedLinear.OneHot

open Cert.KernelIdeal Cert.KernelIdeal.Gen Idealize.ShloMosaic Idealize.ShloMosaic.TcCoe Idealize.SL.Sem
open Idealize.ShloMosaic.ValueIdx Cert.EmbedLinear

variable (m : (ℓ : Loc nD τ sig) → Buf (Elt Ideal) ℓ)

/-- THE MATRIX AT `(f, k)`: one when `f` is child `k`'s column `col (parents k)`, zero otherwise. -/
theorem matrix_apply (c : Dev nD) (f k : Fin 4096) :
    (V m c main_v17 : S4096x4096.Idx → EReal) (ix2 f k)
      = if f = col ((m (c, Proc.tc.devRef main_arg2) : S4096.Idx → BitVec 32) (ix1 k)) then (1 : EReal) else 0 := by
  rw [V_matrix m c, scattered_apply]
  have h1 : (broadcastInDim S4096 ![] bcast_S_S4096 (constant (F := Ideal) S_ .bf16 0x3F80#16) : S4096.Idx → EReal) (ix1 k) = 1 :=
    IdealRules.sign_bit.ideal_onePat .bf16
  have h0 : (broadcastInDim S4096x4096 ![] bcast_S_S4096x4096 (constant (F := Ideal) S_ .bf16 0x0000#16) : S4096x4096.Idx → EReal) (ix2 f k) = 0 :=
    IdealRules.sign_bit.ideal_zero .bf16
  rw [h1, h0]

/-- THE SCALES AT `(0, k)`: `values k`. -/
theorem scales_apply (c : Dev nD) (k : Fin 4096) :
    (V m c main_v18 : S1x4096.Idx → EReal) (ix2 (0 : Fin 1) k) = (m (c, Proc.tc.devRef main_arg1) : S4096.Idx → EReal) (ix1 k) := by
  rw [V_scales m c]
  exact shapeCast_apply _ shapeCasts_S4096_S1x4096 (ix2 (0 : Fin 1) k) (ix1 k) (by
    rw [Shape.rowMajor_val_one, Shape.rowMajor_val_two]
    show k.val = 0 * 4096 + k.val
    omega)

end Cert.EmbedLinear.OneHot

end
-- ==== Proof.KernelValue.lean ====
/-
  The kernel's result array.

  Grid point `t` stages rows `64 t … 64 t + 63` of the input, the whole 4096 × 4096 matrix and the whole row of scales, and
  writes back rows `64 t … 64 t + 63` of the result. The matrix has a single one in column `k`, at row
  `col (parents k)`, and the scales are the `values`; so what the point writes back is its block of the specification's
  array. The 256 blocks tile the array's rows, so the array ends at the specification.
-/
import proofs.«413260_j80968723464887_3_alg».proof.Proof.Gen.KernelIdeal.Value
import proofs.«413260_j80968723464887_3_alg».proof.Proof.Block
import proofs.«413260_j80968723464887_3_alg».proof.Proof.OneHot
import proofs.«413260_j80968723464887_3_alg».proof.Proof.Spec

noncomputable section

namespace Cert.EmbedLinear.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.EmbedLinear

variable (m : (ℓ : Loc nD τ sig) → Buf (Elt Ideal) ℓ) (ρ : Dev nD → PrngReg)

/-- The three argument arrays as launched. -/
abbrev input (c : Dev nD) : S16384x4096.Idx → EReal := m ((c : Thread nD τ).loc main_arg0)
abbrev values (c : Dev nD) : S4096.Idx → EReal := m ((c : Thread nD τ).loc main_arg1)
abbrev parents (c : Dev nD) : S4096.Idx → BitVec 32 := m ((c : Thread nD τ).loc main_arg2)

/-- The specification's array of the launched arguments. -/
def result (c : Dev nD) : S16384x8192.Idx → EReal := embed (input m c) (values m c) (parents m c)

/-! ## Where each window's block sits at a point -/

/-- The printed index maps, decided over the 256 points: the input and the result move one block of rows per point;
    the matrix and the scales stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 256 := lt_of_lt_of_eq t.isLt N_0

/-! ## What a point writes back -/

/-- WHAT POINT `t` WRITES BACK is block `t` of the specification's array. -/
theorem flushed_eq (c : Dev nD) (t : Fin cfg0.N) :
    (dats m 0 c).flushed 3 t = ((cfg0.win 3).blk t).view.read (Elt Ideal) (result m c) := by
  rw [Value.flushed3]
  obtain ⟨e00, e01, e10, e11, e20, e21, e30, e31⟩ := idx_facts t
  have ht := point_lt t
  funext y
  obtain ⟨r, k, rfl⟩ : ∃ (r : Fin 64) (k : Fin 8192), y = ix2 r k := ⟨y 0, y 1, eq_ix2 y⟩
  have hr := r.isLt
  have hk := k.isLt
  show out0_3 (iblk m c 0 t) (iblk m c 1 t) (iblk m c 2 t) (ix2 r k) = result m c (((cfg0.win 3).blk t).view.emb (ix2 r k))
  have hemb : ((cfg0.win 3).blk t).view.emb (ix2 r k) = ix2 (⟨64 * t.val + r.val, by omega⟩ : Fin 16384) k := by
    funext a; apply Fin.ext
    match a with
    | ⟨0, _⟩ => show win0_3.index t (0 : Fin 2) * 64 + 1 * r.val = 64 * t.val + r.val; omega
    | ⟨1, _⟩ => show win0_3.index t (1 : Fin 2) * 8192 + 1 * k.val = k.val; omega
  rw [hemb]
  -- the input block's entries, the matrix's and the scales', each read where it sits in its array
  have hin : ∀ f : Fin 4096, (iblk m c 0 t : S64x4096.Idx → EReal) (ix2 r f) = input m c (ix2 (⟨64 * t.val + r.val, by omega⟩ : Fin 16384) f) := fun f => by
    show V m c main_arg0 (((cfg0.win 0).blk t).view.emb (ix2 r f)) = _
    rw [V_main_arg0]
    refine congrArg (input m c) (funext fun a => Fin.ext ?_)
    have hf := f.isLt
    match a with
    | ⟨0, _⟩ => show win0_0.index t (0 : Fin 2) * 64 + 1 * r.val = 64 * t.val + r.val; omega
    | ⟨1, _⟩ => show win0_0.index t (1 : Fin 2) * 4096 + 1 * f.val = f.val; omega
  have hmat : ∀ f k' : Fin 4096, (iblk m c 1 t : S4096x4096.Idx → EReal) (ix2 f k') = if f = col (parents m c (ix1 k')) then (1 : EReal) else 0 := fun f k' => by
    show V m c main_v17 (((cfg0.win 1).blk t).view.emb (ix2 f k')) = _
    have e : ((cfg0.win 1).blk t).view.emb (ix2 f k') = ix2 f k' := by
      funext a; apply Fin.ext
      have hf := f.isLt
      have hk' := k'.isLt
      match a with
      | ⟨0, _⟩ => show win0_1.index t (0 : Fin 2) * 4096 + 1 * f.val = f.val; omega
      | ⟨1, _⟩ => show win0_1.index t (1 : Fin 2) * 4096 + 1 * k'.val = k'.val; omega
    rw [e]
    exact OneHot.matrix_apply m c f k'
  have hsc : ∀ k' : Fin 4096, (iblk m c 2 t : S1x4096.Idx → EReal) (ix2 (0 : Fin 1) k') = values m c (ix1 k') := fun k' => by
    show V m c main_v18 (((cfg0.win 2).blk t).view.emb (ix2 (0 : Fin 1) k')) = _
    have e : ((cfg0.win 2).blk t).view.emb (ix2 (0 : Fin 1) k') = ix2 (0 : Fin 1) k' := by
      funext a; apply Fin.ext
      have hk' := k'.isLt
      match a with
      | ⟨0, _⟩ => show win0_2.index t (0 : Fin 2) * 1 + 1 * 0 = 0; omega
      | ⟨1, _⟩ => show win0_2.index t (1 : Fin 2) * 4096 + 1 * k'.val = k'.val; omega
    rw [e]
    exact OneHot.scales_apply m c k'
  refine (Block.out_apply (iblk m c 0 t) (iblk m c 1 t) (iblk m c 2 t) (fun k' => col (parents m c (ix1 k'))) hmat r k).trans ?_
  unfold result
  by_cases h : k.val < 4096
  · rw [dif_pos h, embed_left _ _ _ _ k h]
    exact hin _
  · rw [dif_neg h, embed_right _ _ _ _ k h, hin, hsc]

/-! ## The blocks tile the array -/

/-- An index of the result array is in point `t`'s block iff each coordinate is in the block's range on its axis. -/
theorem mem_blk (t : Fin cfg0.N) (i : S16384x8192.Idx) :
    i ∈ ((cfg0.win 3).blk t).view.set ↔ ∀ a : Fin 2, win0_3.index t a * S64x8192.size a ≤ (i a).val ∧ (i a).val < win0_3.index t a * S64x8192.size a + S64x8192.size a := by
  show i ∈ ((View.whole main_v19).slice (win0_3.rect t)).set ↔ _
  rw [View.set_slice_whole, Rect.mem_set_unit]
  exact Iff.rfl

/-- Row `i₀` of the result lies in the block of point `i₀ / 64`. -/
theorem cover (i : S16384x8192.Idx) : ∃ t : Fin cfg0.N, (cfg0.win 3).flush t = true ∧ i ∈ ((cfg0.win 3).blk t).view.set := by
  have hi0 : (i 0).val < 16384 := idx2_lt0 i
  have hi1 : (i 1).val < 8192 := idx2_lt1 i
  let t : Fin cfg0.N := ⟨(i 0).val / 64, by rw [show cfg0.N = 256 from N_0]; omega⟩
  obtain ⟨-, -, -, -, -, -, e30, e31⟩ := idx_facts t
  have htv : t.val = (i 0).val / 64 := rfl
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 8192 ≤ (i 1).val ∧ (i 1).val < win0_3.index t (1 : Fin 2) * 8192 + 8192; omega

/-- THE ARRAY after the run is the specification's. -/
theorem final (c : Dev nD) : (dats m 0 c).arrAt 3 cfg0.N = result m c :=
  (dats m 0 c).arrAt_eq_of_cover 3 (result m c) (fun t _ => flushed_eq m c t) cover

/-! ## The run, read -/

/-- Every weakly fair execution of the kernel's program ends with the result array at the specification's function of the
    launched arguments, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.EmbedLinear.KernelValue

end
-- ==== Proof.LibGatherCols.lean ====
/-
  A column gather read at an index. jnp's `x[:, cols]` over a rank-2 array `x : [B, N]` and an integer vector
  `cols : [n]` prints as a `stablehlo.gather` whose start indices are the [n × 1] column of `cols`, with
  offset_dims = [0], collapsed_slice_dims = [1], start_index_map = [1], index_vector_dim = 1 and
  slice_sizes = [B, 1]. Result element (b, k) is `x` at row `b` and at the column named by start index `k`, read as a
  signed integer and clamped into [0, N − 1] (StableHLO's gather clamps every start index).
-/
import Idealize.ShloMosaic.PureOps.Ideal
import Idealize.ShloMosaic.Lib.ValueIdx

noncomputable section

namespace Cert.LibGatherCols

open Idealize.ShloMosaic Idealize.ShloMosaic.ValueIdx

/-- An entry of a one-element list is that element. -/
private theorem getElem_of_eq_singleton {β : Type} (l : List β) (c : β) (i : Nat) (h : i < l.length) (hl : l = [c]) :
    l[i] = c := by
  subst hl
  have hi : i = 0 := by simpa using h
  subst hi
  rfl

/-- The value of a rank-2 index at an axis that is axis `0`. -/
private theorem val_at_zero {n0 n1 : Nat} (a : Fin n0) (c : Fin n1) (z : Fin 2) (hz : z = 0) :
    ((ix2 a c) z).val = a.val := by
  subst hz; rfl

/-- The value of a rank-2 index at an axis that is axis `1`. -/
private theorem val_at_one {n0 n1 : Nat} (a : Fin n0) (c : Fin n1) (z : Fin 2) (hz : z = 1) :
    ((ix2 a c) z).val = c.val := by
  subst hz; rfl

/-- Axis `0` is not in the one-element list of axis `1`. -/
private theorem zero_not_mem_one : (0 : Fin 2) ∉ ([1] : List (Fin 2)) := by decide

/-- Of a rank-2 array the axes kept when axis `0` is left out are axis `1` alone. -/
private theorem kept_zero (sz : Fin 2 → Nat) : (⟨2, sz⟩ : Shape).kept [0] = [1] := by
  simp [Shape.kept, List.finRange]

/-- The column gather read at (b, k): the operand at row b and at the column named by start index k, read signed and clamped into [0, N − 1]. -/
theorem gather_cols_apply {α : Type} {B N n w : Nat} (d : GatherDims ⟨2, ![B, N]⟩ ⟨2, ![n, 1]⟩ ⟨2, ![B, n]⟩)
    (hoff : d.offsetDims = [0]) (hcoll : d.collapsedSliceDims = [1]) (hob : d.operandBatchingDims = []) (hsb : d.startIndicesBatchingDims = [])
    (hsim : d.startIndexMap = [1]) (hivd : d.indexVectorDim = 1) (hss : d.sliceSizes = ![B, 1])
    (x : (⟨2, ![B, N]⟩ : Shape).Idx → α) (idx : IVec ⟨2, ![n, 1]⟩ w) (b : Fin B) (k : Fin n) (hN : 0 < N) :
    Host.gather d x idx (ix2 b k) = x (ix2 b ⟨min (idx (ix2 k (0 : Fin 1))).toInt.toNat (N - 1), by omega⟩) := by
  unfold Host.gather
  congr 1
  funext a
  apply Fin.ext
  have hb : ∀ a : Fin 2, a ∉ d.operandBatchingDims := fun a => by rw [hob]; exact List.not_mem_nil
  match a with
  | ⟨0, _⟩ =>
    -- axis 0: an offset axis, not start-indexed: start 0, no batching coordinate, the result's coordinate on offset axis 0
    have hm : (0 : Fin 2) ∉ d.startIndexMap := by rw [hsim]; exact zero_not_mem_one
    have hk : (0 : Fin 2) ∈ d.sKept := by
      rw [GatherDims.mem_sKept, hcoll, hob]; exact ⟨zero_not_mem_one, List.not_mem_nil⟩
    show d.start (ix2 b k) idx 0 + d.batchCoord (ix2 b k) 0 + d.offCoord (ix2 b k) 0 = b.val
    rw [GatherDims.batchCoord_eq_zero _ _ _ (hb 0)]
    unfold GatherDims.start GatherDims.offCoord
    rw [dif_neg hm, dif_pos hk]
    simp only [Nat.zero_add, Nat.add_zero]
    exact val_at_zero b k _ (getElem_of_eq_singleton _ _ _ _ hoff)
  | ⟨1, _⟩ =>
    -- axis 1: collapsed and start-indexed: the clamped start index alone
    have hm : (1 : Fin 2) ∈ d.startIndexMap := by rw [hsim]; exact List.mem_singleton.mpr rfl
    have hk : (1 : Fin 2) ∉ d.sKept := by
      rw [GatherDims.mem_sKept, hcoll]; exact fun h => h.1 (List.mem_singleton.mpr rfl)
    have hsl : d.sliceSizes 1 = 1 := d.slice_collapsed 1 (by rw [hcoll]; exact List.mem_singleton.mpr rfl)
    have hbatch : d.batchDims = [1] := by
      show Shape.kept _ d.offsetDims = _
      rw [hoff]; exact kept_zero _
    -- the start-indices index read for result (b, k) is [k, 0]
    have hsi : d.siIdx (ix2 b k) ⟨d.startIndexMap.idxOf 1, List.idxOf_lt_length_iff.2 hm⟩ = ix2 k (0 : Fin 1) := by
      funext c
      match c with
      | ⟨0, _⟩ =>
        -- the batch coordinate: the result's axis 1 is its one batch axis, reading the start indices' axis 0
        unfold GatherDims.siIdx
        rw [dif_neg (by rw [hivd]; exact Nat.zero_ne_one)]
        unfold GatherDims.siCoord
        apply Fin.ext
        simp only [Fin.val_cast]
        exact val_at_one b k _ (getElem_of_eq_singleton _ _ _ _ hbatch)
      | ⟨1, _⟩ =>
        -- component 0 on the index vector's axis
        unfold GatherDims.siIdx
        rw [dif_pos (by rw [hivd])]
        apply Fin.ext
        show List.idxOf (1 : Fin 2) d.startIndexMap = 0
        rw [hsim]; simp
    show d.start (ix2 b k) idx 1 + d.batchCoord (ix2 b k) 1 + d.offCoord (ix2 b k) 1 = min (idx (ix2 k (0 : Fin 1))).toInt.toNat (N - 1)
    rw [GatherDims.batchCoord_eq_zero _ _ _ (hb 1), GatherDims.offCoord_eq_zero _ _ _ hk]
    unfold GatherDims.start
    rw [dif_pos hm, hsi, hsl]
    rfl

end Cert.LibGatherCols

end
-- ==== Proof.RefValue.lean ====
/-
  The reference program's result array is the specification's function.

  The reference joins the input with a second half along the columns. The second half is the product of two arrays:
  the input gathered along the columns at the parent words — each word first normalised (a negative word has 4096 added)
  and then, by the gather, read signed and clamped into [0, 4095] — and the values laid along every row. When no parent
  word is negative the normalisation is the identity, so the gathered column of child `c` is the specification's
  `col (parents c)`, and entry (b, 4096 + c) is `input[b, col (parents c)] * values[c]`.
-/
import proofs.«413260_j80968723464887_3_alg».proof.Proof.Gen.ReferenceIdeal.Read
import proofs.«413260_j80968723464887_3_alg».proof.Proof.Spec
import proofs.«413260_j80968723464887_3_alg».proof.Proof.Words
import proofs.«413260_j80968723464887_3_alg».proof.Proof.LibGatherCols
import Idealize.ShloMosaic.Lib.ValueIdx
import Idealize.ShloMosaic.Lib.Pipeline.Value
import Idealize.ShloMosaic.PureOps.Ideal

noncomputable section

namespace Cert.EmbedLinear.RefValue

open Cert.ReferenceIdeal Cert.ReferenceIdeal.Read Idealize.ShloMosaic Idealize.ShloMosaic.ValueIdx Cert.EmbedLinear

/-- The start-index word of child `c`: the parent word after the index normalisation, which leaves a word that is
    not negative alone. -/
theorem start_word (x2 : S4096.Idx → BitVec 32) (c : Fin 4096) (h : 0 ≤ (x2 (ix1 c)).toInt) :
    val_main_v5 (F := Ideal) x2 (ix2 c (0 : Fin 1)) = x2 (ix1 c) := by
  rw [val_main_v5_apply]
  have e : idx_main_v5 (ix2 c (0 : Fin 1)) = ix1 c := by
    funext a; match a with | ⟨0, _⟩ => rfl
  rw [e, val_main_v4_apply, val_main_v1_apply, val_main_v3_apply, val_main_v0_apply, val_main_v2_apply,
    val_main_c_apply, val_main_c_0_apply]
  exact normalize_of_nonneg h

/-- The gathered array at (b, c): the input at row `b` and at the column the parent word of `c` names. -/
theorem gathered (x0 : S16384x4096.Idx → EReal) (x2 : S4096.Idx → BitVec 32)
    (hp : ∀ k : Fin 4096, 0 ≤ (x2 (ix1 k)).toInt) (b : Fin 16384) (c : Fin 4096) :
    val_main_v6 (F := Ideal) x0 x2 (ix2 b c) = x0 (ix2 b (col (x2 (ix1 c)))) := by
  unfold val_main_v6
  rw [Cert.LibGatherCols.gather_cols_apply _ rfl rfl rfl rfl rfl rfl rfl x0 _ b c (by decide)]
  simp only [start_word x2 c (hp c)]
  rfl

/-- The values laid along every row: at (b, c) the value of child `c`. -/
theorem scale (x1 : S4096.Idx → EReal) (b : Fin 16384) (c : Fin 4096) :
    val_main_v8 (F := Ideal) x1 (ix2 b c) = x1 (ix1 c) := by
  rw [val_main_v8_apply, val_main_v7_apply]
  congr 1
  funext a; match a with | ⟨0, _⟩ => rfl

/-- The second half at (b, c): the gathered input times the value of child `c`. -/
theorem product (x0 : S16384x4096.Idx → EReal) (x1 : S4096.Idx → EReal) (x2 : S4096.Idx → BitVec 32)
    (hp : ∀ k : Fin 4096, 0 ≤ (x2 (ix1 k)).toInt) (b : Fin 16384) (c : Fin 4096) :
    val_main_v9 (F := Ideal) x0 x1 x2 (ix2 b c) = x0 (ix2 b (col (x2 (ix1 c)))) * x1 (ix1 c) := by
  rw [val_main_v9_apply, gathered x0 x2 hp b c, scale x1 b c]
  rfl

/-- The reference's result — the input beside its gathered columns scaled by the values — is the specification's array, when no parent word is negative (then the index normalisation is the identity and the gather's clamp is the specification's). -/
theorem reference_eq (x0 : S16384x4096.Idx → EReal) (x1 : S4096.Idx → EReal) (x2 : S4096.Idx → BitVec 32)
    (hp : ∀ k : Fin 4096, 0 ≤ (x2 (ix1 k)).toInt) :
    val_main_v10 (F := Ideal) x0 x1 x2 = embed x0 x1 x2 := by
  funext j
  obtain ⟨b, k, rfl⟩ : ∃ (b : Fin 16384) (k : Fin 8192), j = ix2 b k := ⟨j 0, j 1, eq_ix2 j⟩
  by_cases h : k.val < 4096
  · -- a column of the first half: the first piece, at the same coordinates
    rw [embed_left x0 x1 x2 b k h]
    unfold val_main_v10
    exact concatenate_pair_apply_left (t := S16384x8192) (s₁ := S16384x4096) (s₂ := S16384x4096) 1 x0
      (val_main_v9 (F := Ideal) x0 x1 x2) _ (ix2 b k) rfl (ix2 b (⟨k.val, h⟩ : Fin 4096))
      (fun a => by match a with | ⟨0, _⟩ => rfl | ⟨1, _⟩ => rfl)
  · -- a column of the second half: the second piece, the column 4096 less
    rw [embed_right x0 x1 x2 b k h, ← product x0 x1 x2 hp b (child k h)]
    unfold val_main_v10
    exact concatenate_pair_apply_right (t := S16384x8192) (s₁ := S16384x4096) (s₂ := S16384x4096) 1 x0
      (val_main_v9 (F := Ideal) x0 x1 x2) _ (ix2 b k) rfl rfl (ix2 b (child k h))
      (fun a ha => by
        match a with
        | ⟨0, _⟩ => rfl
        | ⟨1, _⟩ => exact absurd rfl ha)
      (by show (k.val - 4096) + 4096 = k.val; omega)

end Cert.EmbedLinear.RefValue

end
-- ==== Proof.Pre.lean ====
/-
  What the precondition says of the parent words: its last conjunct is `jnp.all(parents >= 0)`, a reduction by
  `and` of the signed comparisons `parents k ≥ 0`; the whole predicate being 1, every parent word is non-negative.
-/
import proofs.«413260_j80968723464887_3_alg».proof.Pre_finite_inputs
import Idealize.ShloMosaic.Lib.ReduceAll
import Idealize.ShloMosaic.Lib.ValueIdx

noncomputable section

namespace Cert.EmbedLinear

open Idealize.ShloMosaic Idealize.ShloMosaic.ValueIdx

instance : Subsingleton Cert.Pre_finite_inputs.S_.Idx := ⟨fun _ _ => funext fun d => d.elim0⟩

/-- Under the precondition every parent word, read as a signed integer, is at least zero. -/
theorem parents_nonneg [Cert.Pre_finite_inputs.Facts] {F : FTy → Type} [FloatOps F]
    (x : FVec F Cert.Pre_finite_inputs.S16384x4096 .f32) (v : FVec F Cert.Pre_finite_inputs.S4096 .f32)
    (p : IVec Cert.Pre_finite_inputs.S4096 32)
    (h : Cert.Pre_finite_inputs.fn (F := F) x v p = fun _ => 1#1) (k : Fin 4096) : 0 ≤ (p (ix1 k)).toInt := by
  have h0 := congrFun h ix0
  dsimp only [Cert.Pre_finite_inputs.fn] at h0
  have hC := (IntOp.andi_eq_one.1 h0).2
  have hk := Host.reduce_andi_all _ _ _ _ _ hC (ix1 k)
  have := IntOp.cmpi_sge.1 hk
  exact this

end Cert.EmbedLinear

end
-- ==== Proof.lean ====
/-
  The layer: `out = concat([input, input[:, parents] * values], axis = 1)` over `input : [16384, 4096]`,
  `values : [4096]`, `parents : [4096]` (integer column indices).

  The reference gathers the input's columns at the parent words and scales column `c` by `values c`. The kernel never
  gathers: before its one region it clamps every parent word into `[0, 4095]` and scatters a one into a 4096 × 4096
  matrix of zeros at (clamped parent of `c`, `c`); each grid point then copies its 64 input rows to the first half of
  its output rows and writes, to the second half, the product of those rows with the matrix, scaled by the values.
  At the ideal values the change of float format before the product is the identity, a product with a one-hot column
  picks one entry of the row (`x * 0 = 0` and `x * 1 = x` on every extended real, the infinities included, so no
  finiteness is used), and the kernel's array is

      out[b, k] = input[b, k]                              (k < 4096)
      out[b, 4096 + c] = input[b, col (parents c)] * values c,   col w = the signed word w clamped into [0, 4095]

  for EVERY parent word. The reference normalises a negative index first (`w + 4096`) and its gather then clamps, so it
  computes the same array exactly when no parent word lies in `[-4095, -1]`; the precondition's conjunct
  `parents ≥ 0` is what the reference's side uses, and the only place the precondition is opened.

  The specification is Proof/Spec.lean; the kernel's array is Proof/KernelValue.lean (over Proof/Block.lean, one
  block; Proof/OneHot.lean, the scattered matrix and the row of scales as the region finds them; Proof/Payload.lean,
  the body's arithmetic at an element); the reference's is Proof/RefValue.lean; Proof/Pre.lean reads the
  precondition. Two general lemma files: Proof/LibScatterSet.lean (a `set` scatter read at an element) and
  Proof/LibGatherCols.lean (a column gather read at an element).
-/
import proofs.«413260_j80968723464887_3_alg».proof.Defs
import proofs.«413260_j80968723464887_3_alg».proof.Proof.Gen.Kernel
import proofs.«413260_j80968723464887_3_alg».proof.Proof.Gen.Kernel.Skeleton
import proofs.«413260_j80968723464887_3_alg».proof.Proof.Gen.Kernel.Launch
import proofs.«413260_j80968723464887_3_alg».proof.Proof.Gen.Kernel.Points
import proofs.«413260_j80968723464887_3_alg».proof.Proof.Gen.Kernel.Frame
import proofs.«413260_j80968723464887_3_alg».proof.Proof.Gen.KernelIdeal
import proofs.«413260_j80968723464887_3_alg».proof.Proof.Gen.KernelIdeal.Skeleton
import proofs.«413260_j80968723464887_3_alg».proof.Proof.Gen.KernelIdeal.Launch
import proofs.«413260_j80968723464887_3_alg».proof.Proof.Gen.KernelIdeal.Points
import proofs.«413260_j80968723464887_3_alg».proof.Proof.Gen.KernelIdeal.Frame
import proofs.«413260_j80968723464887_3_alg».proof.Proof.Gen.ReferenceIdeal
import proofs.«413260_j80968723464887_3_alg».proof.Proof.Gen.KernelIdeal.Value
import proofs.«413260_j80968723464887_3_alg».proof.Proof.Gen.ReferenceIdeal.Run
import proofs.«413260_j80968723464887_3_alg».proof.Proof.Gen.ReferenceIdeal.Read
import proofs.«413260_j80968723464887_3_alg».proof.Proof.Gen.Pre_finite_inputs
import proofs.«413260_j80968723464887_3_alg».proof.Proof.KernelValue
import proofs.«413260_j80968723464887_3_alg».proof.Proof.RefValue
import proofs.«413260_j80968723464887_3_alg».proof.Proof.Pre
import Idealize.ShloMosaic.Adequacy
import Idealize.ShloMosaic.Init

noncomputable section

namespace Cert.Proof

open Idealize.ShloMosaic Idealize.ShloMosaic.ValueIdx Idealize.SL.Sem Cert.EmbedLinear

/-- The word-level kernel terminates without a fault and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Both programs end with the specification's array of the launched arguments: the kernel for every parent word
    (its clamp is the specification's), the reference because no parent word is negative. -/
theorem algebraic : Cert.algebraic_KernelIdeal_ReferenceIdeal := by
  intro m ρ m' ρ' hpre hagree
  refine ⟨_, KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v10_eq _ _ _).trans
    (RefValue.reference_eq _ _ _ (fun k => parents_nonneg _ _ _ (hpre c) k))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
